-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S_ : Shape := ⟨0, ![]⟩
abbrev S32x2048x2048 : Shape := ⟨3, ![32, 2048, 2048]⟩
abbrev S32x2048 : Shape := ⟨2, ![32, 2048]⟩
abbrev S32x2048x1 : Shape := ⟨3, ![32, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32x2048x2048, .f32⟩
  | .hbm, ⟨8, _⟩ => ⟨S32x2048x2048, .f32⟩
  | .hbm, ⟨9, _⟩ => ⟨S32x2048x2048, .f32⟩
  | .hbm, ⟨10, _⟩ => ⟨S_, .f32⟩
  | .hbm, ⟨11, _⟩ => ⟨S32x2048, .f32⟩
  | .hbm, ⟨12, _⟩ => ⟨S_, .f32⟩
  | .hbm, ⟨13, _⟩ => ⟨S32x2048, .f32⟩
  | .hbm, ⟨14, _⟩ => ⟨S32x2048, .f32⟩
  | .hbm, ⟨15, _⟩ => ⟨S32x2048x1, .f32⟩
  | .hbm, ⟨16, _⟩ => ⟨S32x2048x2048, .f32⟩
  | .hbm, ⟨17, _⟩ => ⟨S32x2048x2048, .f32⟩
  | .hbm, ⟨18, _⟩ => ⟨S32x2048x2048, .f32⟩
  | .hbm, ⟨19, _⟩ => ⟨S_, .f32⟩
  | .hbm, ⟨20, _⟩ => ⟨S32x2048, .f32⟩
  | .hbm, ⟨21, _⟩ => ⟨S32x2048x1, .f32⟩
  | .hbm, ⟨22, _⟩ => ⟨S32x2048x2048, .f32⟩
  | .hbm, ⟨23, _⟩ => ⟨S32x2048x2048, .f32⟩
  | .hbm, ⟨24, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.SoftmaxLaw.lean ====
/-
  Scaled dot-product attention on one row, over the extended reals.

  Two arrangements of the same row computation are set side by side here.
  For scores s over the keys and one column v of the values:

    attend    s v = (∑ c, exp (s c - M) * v c) / (∑ c, exp (s c - M))        M = max over c of s c
    attendRef s v =  ∑ c, (exp (s c - M) / (0 + ∑ c', exp (s c' - M))) * v c

  and for a query row a and a key row b, the score with the scale inside the sum or outside it:

    scoreIn  a b = ∑ j, a j * (1/8) * b j
    scoreOut a b = (∑ j, a j * b j) * (1 / sqrt 64)

  Over real entries the arrangements agree: sqrt 64 = 8; a real factor moves across a finite sum of reals;
  the maximum of finitely many reals (at least one) is a real, so every shifted exponential is a positive
  real, their sum L is a positive real, and division by L distributes over the sum. None of this holds at
  the infinities, which is why the statements ask for real entries.
-/
import Idealize.ShloMosaic.PureOps.Ideal
import Idealize.ShloMosaic.PureOps.Ideal.Laws

noncomputable section

namespace Cert.Attn

open Idealize.ShloMosaic
open scoped BigOperators

/-! ## The literal words the two programs spell -/

/-- The word of f32 minus infinity is the bottom of the extended reals. -/
theorem word_neg_inf : Ideal.ofBits .f32 0xFF800000#32 = ⊥ := by
  simp [Ideal.ofBits, Ideal.ieee]

/-- The word of f32 0.125 is the real 1/8. -/
theorem word_eighth : Ideal.ofBits .f32 0x3E000000#32 = ((1 / 8 : ℝ) : EReal) := by
  simp [Ideal.ofBits, Ideal.ieee, -EReal.coe_mul]; norm_num

/-- The word of f32 64.0 is the real 64. -/
theorem word_sixty_four : Ideal.ofBits .f32 0x42800000#32 = ((64 : ℝ) : EReal) := by
  simp [Ideal.ofBits, Ideal.ieee, -EReal.coe_mul]; norm_num

/-- The word of f32 1.0 is the real 1. -/
theorem word_one : Ideal.ofBits .f32 0x3F800000#32 = ((1 : ℝ) : EReal) := by
  simp [Ideal.ofBits, Ideal.ieee, -EReal.coe_mul]; norm_num

/-- One over the square root of sixty-four is one eighth. -/
theorem one_div_sqrt_sixty_four :
    Ideal.div (Ideal.ofBits .f32 0x3F800000#32) (Ideal.sqrt (Ideal.ofBits .f32 0x42800000#32)) = ((1 / 8 : ℝ) : EReal) := by
  have h8 : Real.sqrt 64 = 8 := by
    rw [show (64 : ℝ) = 8 ^ 2 by norm_num]; exact Real.sqrt_sq (by norm_num)
  rw [word_one, word_sixty_four, Ideal.sqrt_coe, if_neg (by norm_num), h8,
    Ideal.div_coe (by norm_num : (8 : ℝ) ≠ 0), ← EReal.coe_mul]
  norm_num

/-! ## Finite sums and maxima of reals inside the extended reals -/

/-- The inclusion of the reals commutes with finite sums. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum, taken from minus infinity, of a nonempty finite family of reals is a real. -/
theorem fold_max_real {ι : Type} (f : ι → ℝ) (t : Finset ι) (ht : t.Nonempty) :
    ∃ M : ℝ, t.fold max (⊥ : EReal) (fun c => (f c : EReal)) = (M : EReal) := by
  classical
  induction ht using Finset.Nonempty.cons_induction with
  | singleton a => exact ⟨f a, by rw [Finset.fold_singleton]; exact max_bot_right _⟩
  | cons a t ha _ ih =>
    obtain ⟨M, hM⟩ := ih
    exact ⟨max (f a) M, by rw [Finset.fold_cons, hM]; exact (EReal.coe_strictMono.monotone.map_max).symm⟩

/-! ## The score of a query row against a key row -/

/-- The score with the scale 1/8 applied to the query entry inside the sum. -/
def scoreIn {d : Nat} (a b : Fin d → EReal) : EReal :=
  ∑ j : Fin d, a j * Ideal.ofBits .f32 0x3E000000#32 * b j

/-- The score with the scale 1 / sqrt 64 applied to the finished sum. -/
def scoreOut {d : Nat} (a b : Fin d → EReal) : EReal :=
  (∑ j : Fin d, a j * b j) * Ideal.div (Ideal.ofBits .f32 0x3F800000#32) (Ideal.sqrt (Ideal.ofBits .f32 0x42800000#32))

/-- On real rows the inside-scaled score is the real ∑ a·b / 8. -/
theorem scoreIn_real {d : Nat} (a b : Fin d → ℝ) :
    scoreIn (fun j => (a j : EReal)) (fun j => (b j : EReal)) = ((∑ j : Fin d, a j * (1 / 8) * b j : ℝ) : EReal) := by
  unfold scoreIn
  rw [word_eighth, coe_sum]
  exact Finset.sum_congr rfl fun j _ => by rw [EReal.coe_mul, EReal.coe_mul]

/-- On real rows the two placements of the scale give the same score. -/
theorem scoreOut_eq_scoreIn {d : Nat} (a b : Fin d → ℝ) :
    scoreOut (fun j => (a j : EReal)) (fun j => (b j : EReal)) = scoreIn (fun j => (a j : EReal)) (fun j => (b j : EReal)) := by
  rw [scoreIn_real]
  unfold scoreOut
  rw [one_div_sqrt_sixty_four]
  have h : (∑ j : Fin d, (a j : EReal) * (b j : EReal)) = ((∑ j : Fin d, a j * b j : ℝ) : EReal) := by
    rw [coe_sum]; exact Finset.sum_congr rfl fun j _ => (EReal.coe_mul _ _).symm
  rw [h, ← EReal.coe_mul, Finset.sum_mul]
  exact congrArg _ (Finset.sum_congr rfl fun j _ => by ring)

/-! ## One row of attention -/

/-- The row maximum, taken from minus infinity. -/
def rowMax {n : Nat} (s : Fin n → EReal) : EReal :=
  (Finset.univ : Finset (Fin n)).fold max (Ideal.ofBits .f32 0xFF800000#32) s

/-- Normalise last: the weighted sum of the value column divided by the sum of the weights. -/
def attend {n : Nat} (s v : Fin n → EReal) : EReal :=
  Ideal.div (∑ c : Fin n, Ideal.exp (s c - rowMax s) * v c) (∑ c : Fin n, Ideal.exp (s c - rowMax s))

/-- Normalise first: each weight divided by the sum of the weights, then the weighted sum of the value column. -/
def attendRef {n : Nat} (s v : Fin n → EReal) : EReal :=
  ∑ c : Fin n, Ideal.div (Ideal.exp (s c - max (Ideal.ofBits .f32 0xFF800000#32) (rowMax s)))
      (Ideal.ofBits .f32 0x00000000#32 + ∑ c' : Fin n, Ideal.exp (s c' - max (Ideal.ofBits .f32 0xFF800000#32) (rowMax s))) * v c

/-- On real scores and a real value column, with at least one key, the two orders of normalising agree:
    the shifted exponentials are positive reals, so their sum L is a nonzero real and
    (∑ p·v) / L = ∑ (p / L)·v. -/
theorem attendRef_eq_attend {n : Nat} (hn : 0 < n) (s v : Fin n → ℝ) :
    attendRef (fun c => (s c : EReal)) (fun c => (v c : EReal)) = attend (fun c => (s c : EReal)) (fun c => (v c : EReal)) := by
  haveI : Nonempty (Fin n) := ⟨⟨0, hn⟩⟩
  obtain ⟨M, hM⟩ : ∃ M : ℝ, rowMax (fun c => (s c : EReal)) = (M : EReal) := by
    unfold rowMax; rw [word_neg_inf]; exact fold_max_real s _ Finset.univ_nonempty
  unfold attendRef attend
  rw [hM, word_neg_inf, max_eq_right bot_le, Ideal.ofBits_zero_f32, zero_add]
  have hexp : ∀ c : Fin n, Ideal.exp ((s c : EReal) - (M : EReal)) = ((Real.exp (s c - M) : ℝ) : EReal) := fun c => by
    rw [← EReal.coe_sub, Ideal.exp_coe]
  simp only [hexp]
  have hL : (∑ c : Fin n, ((Real.exp (s c - M) : ℝ) : EReal)) = ((∑ c : Fin n, Real.exp (s c - M) : ℝ) : EReal) := (coe_sum _ _).symm
  have hpos : (∑ c : Fin n, Real.exp (s c - M)) ≠ 0 :=
    (Finset.sum_pos (fun c _ => Real.exp_pos _) Finset.univ_nonempty).ne'
  rw [hL]
  simp only [Ideal.div_coe hpos]
  have hnum : (∑ c : Fin n, ((Real.exp (s c - M) : ℝ) : EReal) * (v c : EReal)) = ((∑ c : Fin n, Real.exp (s c - M) * v c : ℝ) : EReal) := by
    rw [coe_sum]; exact Finset.sum_congr rfl fun c _ => (EReal.coe_mul _ _).symm
  rw [hnum, ← EReal.coe_mul, Finset.sum_mul, coe_sum]
  refine Finset.sum_congr rfl fun c _ => ?_
  rw [← EReal.coe_mul, ← EReal.coe_mul]
  exact congrArg _ (by ring)

end Cert.Attn

end
-- ==== Proof.RowOps.lean ====
/-
  Row operations on an m-by-n array over the extended reals, read at an entry.

  A reduction along the second axis, read at row r, ranges over the entries (r, c): its maximum is the row maximum
  taken from minus infinity, its sum is the row sum. A vector of m entries laid out as a column [m, 1], and a column
  repeated along a second axis of any extent, both read back the vector's entry at the row.
-/
import Idealize.ShloMosaic.Lib.ValueIdx
import Idealize.ShloMosaic.Lib.Pipeline.Value
import Idealize.ShloMosaic.PureOps.Ideal.Laws
import proofs.«408572_j77756087927287_3_alg».proof.Proof.SoftmaxLaw

noncomputable section

namespace Cert.Attn

open Idealize.ShloMosaic Idealize.ShloMosaic.ValueIdx

variable {m n : Nat}

/-- Row r with the column coordinate c put back is the entry (r, c). -/
theorem lift_row (h : (⟨2, ![m, n]⟩ : Shape).Reduces [1] (⟨1, ![m]⟩ : Shape)) (r : Fin m)
    (c : Fin ((⟨2, ![m, n]⟩ : Shape).size 1)) : h.lift (ix1 r) c = ix2 r (⟨c.val, c.isLt⟩ : Fin n) := by
  funext a; apply Fin.ext
  match a with
  | ⟨0, _⟩ => rfl
  | ⟨1, _⟩ => rfl

/-- A maximum-reduction along the rows, from the word of minus infinity, at row r is the row maximum. -/
theorem rowmax_apply (x : FVec Ideal (⟨2, ![m, n]⟩ : Shape) .f32) (h : (⟨2, ![m, n]⟩ : Shape).Reduces [1] (⟨1, ![m]⟩ : Shape))
    (hφ : FKind.Formats .f32) (hacc : (0xFF800000#32 : BitVec 32) = FKind.maximumf.neutral .f32 hφ) (r : Fin m) :
    multiReduction .maximumf [1] (⟨1, ![m]⟩ : Shape) x 0xFF800000#32 h hφ hacc (ix1 r) = rowMax (fun c : Fin n => x (ix2 r c)) := by
  rw [Ideal.multiReduction_maximumf_single]
  have hf : (x ∘ h.lift (ix1 r)) = fun c : Fin n => x (ix2 r c) := funext fun c => congrArg x (lift_row h r c)
  exact congrArg (fun f => Finset.fold max (Ideal.ofBits .f32 0xFF800000#32) f (Finset.univ : Finset (Fin n))) hf

/-- A sum-reduction along the rows at row r is the row sum. -/
theorem rowsum_apply (x : FVec Ideal (⟨2, ![m, n]⟩ : Shape) .f32) (h : (⟨2, ![m, n]⟩ : Shape).Reduces [1] (⟨1, ![m]⟩ : Shape))
    (hφ : FKind.Formats .f32) (hacc : (0x00000000#32 : BitVec 32) = FKind.add.neutral .f32 hφ) (r : Fin m) :
    multiReduction .add [1] (⟨1, ![m]⟩ : Shape) x 0x00000000#32 h hφ hacc (ix1 r) = ∑ c : Fin n, x (ix2 r c) := by
  rw [Ideal.multiReduction_add_single]
  exact Finset.sum_congr rfl fun c _ => congrArg x (lift_row h r c)

variable {α : Type}

/-- A vector of m entries laid out as an m-by-1 column reads, at (r, u), the vector's entry r. -/
theorem column_apply (x : (⟨1, ![m]⟩ : Shape).Idx → α) (h : (⟨1, ![m]⟩ : Shape).ShapeCasts ⟨2, ![m, 1]⟩) (r : Fin m) (u : Fin 1) :
    shapeCast ⟨2, ![m, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An m-by-1 column repeated along a second axis of extent n reads, at (r, c), the column's entry r. -/
theorem repeat_column_apply (v : (⟨2, ![m, 1]⟩ : Shape).Idx → α) (h : (⟨2, ![m, 1]⟩ : Shape).Broadcasts ⟨2, ![m, n]⟩)
    (r : Fin m) (c : Fin n) : broadcastTo ⟨2, ![m, n]⟩ v h (ix2 r c) = v (ix2 r (0 : Fin 1)) := by
  refine broadcastTo_apply v h (ix2 r c) (ix2 r (0 : Fin 1)) fun ax => ?_
  match ax with
  | ⟨0, _⟩ =>
    show r.val = if m = 1 then 0 else r.val
    split
    · have := r.isLt; omega
    · rfl
  | ⟨1, _⟩ => rfl

end Cert.Attn

end
-- ==== Proof.LibRowsDot.lean ====
/-
  A matrix product of an M-by-K array with an N-by-K array, both contracted on their last axis, read at an entry.

  With dimension numbers "columns of the left against columns of the right, no batch axis", the operand indices
  at result entry (r, c) and contraction position k are (r, k) on the left and (c, k) on the right: each result
  entry is the dot product of a row of the left with a row of the right. So, over the extended reals, a product
  accumulated into the zero array and a host dot_general are both  ∑ k, lhs (r, k) * rhs (c, k).  Stated for any
  dimension record of that form, whatever its extents.
-/
import Idealize.ShloMosaic.Lib.ValueIdx
import Idealize.ShloMosaic.PureOps.Ideal.Laws

noncomputable section

namespace Idealize.ShloMosaic.RowsDot

open Idealize.ShloMosaic Idealize.ShloMosaic.ValueIdx

variable {M K N : Nat}

/-- The dimension numbers of an M×K by N×K product, rows against rows: last axis against last axis, nothing batched. -/
structure IsRowsByRows (d : DotDims (⟨2, ![M, K]⟩ : Shape) (⟨2, ![N, K]⟩ : Shape) (⟨2, ![M, N]⟩ : Shape)) : Prop where
  lc : d.lhsContracting = [1]
  rc : d.rhsContracting = [1]
  ln : d.lhsNonContracting = [0]
  rn : d.rhsNonContracting = [0]
  lb : d.lhsBatch = []
  rb : d.rhsBatch = []

variable {d : DotDims (⟨2, ![M, K]⟩ : Shape) (⟨2, ![N, K]⟩ : Shape) (⟨2, ![M, N]⟩ : Shape)}

/-- One axis is contracted. -/
theorem IsRowsByRows.rank_contr (h : IsRowsByRows d) : d.contr.rank = 1 := by
  rw [d.rank_contr, h.lc]; rfl

/-- Its extent is K. -/
theorem IsRowsByRows.size_contr (h : IsRowsByRows d) : d.contr.size ⟨0, by rw [h.rank_contr]; exact Nat.one_pos⟩ = K := by
  have e := d.size_contr 0 (by rw [h.lc]; exact Nat.one_pos)
  rw [e]
  simp only [h.lc, List.getElem_cons_zero]
  rfl

/-- A result index read at two positions that are the same number is the same coordinate. -/
private theorem coord_congr (j : (⟨2, ![M, N]⟩ : Shape).Idx) (p q : Nat) (hp : p < (⟨2, ![M, N]⟩ : Shape).rank)
    (hq : q < (⟨2, ![M, N]⟩ : Shape).rank) (e : p = q) : (j ⟨p, hp⟩).val = (j ⟨q, hq⟩).val := by
  subst e; rfl

/-- The left operand's row is the result's row. -/
theorem IsRowsByRows.lhs_row (h : IsRowsByRows d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction position. -/
theorem IsRowsByRows.lhs_col (h : IsRowsByRows d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the result's column. -/
theorem IsRowsByRows.rhs_row (h : IsRowsByRows d) (j : (⟨2, ![M, N]⟩ : Shape).Idx) (k : d.contr.Idx) :
    (d.rhsIdx j k 0).val = (j 1).val := by
  have hb : (0 : Fin (⟨2, ![N, K]⟩ : Shape).rank) ∉ d.rhsBatch := by rw [h.rb]; exact List.not_mem_nil
  have hn : (0 : Fin (⟨2, ![N, K]⟩ : Shape).rank) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

/-- The right operand's column is the contraction position. -/
theorem IsRowsByRows.rhs_col (h : IsRowsByRows d) (j : (⟨2, ![M, N]⟩ : Shape).Idx) (k : d.contr.Idx) :
    (d.rhsIdx j k 1).val = (k ⟨0, by rw [h.rank_contr]; exact Nat.one_pos⟩).val :=
  d.rhsIdx_val_of_single h.rc j k

/-- The sum over the contraction shape's positions, re-indexed by its one coordinate: entry (r, c) of the product
    is the dot product of row r of the left operand with row c of the right operand. -/
theorem IsRowsByRows.sum_contr (h : IsRowsByRows d) {α : Type} [AddCommMonoid α] [Mul α]
    (lhs : (⟨2, ![M, K]⟩ : Shape).Idx → α) (rhs : (⟨2, ![N, K]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 c k) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 c k :=
    funext fun a => Fin.ext (by
      match a with
      | ⟨0, _⟩ => exact h.rhs_row _ _
      | ⟨1, _⟩ => exact (h.rhs_col _ _).trans hk)
  rw [el, er]

/-- A kernel's product into the zero accumulator, over the extended reals, at entry (r, c). -/
theorem IsRowsByRows.matmul_zero_apply (h : IsRowsByRows d) {φ₁ φ₂ : FTy} (prec : Option ContractPrecision)
    (lhs : FVec Ideal (⟨2, ![M, K]⟩ : Shape) φ₁) (rhs : FVec Ideal (⟨2, ![N, K]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 c k) := by
  rw [Ideal.matmul_constant_zero_apply]
  exact h.sum_contr lhs rhs r c

/-- A host dot_general, over the extended reals, at entry (r, c). -/
theorem IsRowsByRows.dotGeneral_apply (h : IsRowsByRows d) {φ₁ φ₂ : FTy} (prec : Option ContractPrecision) (sched : HostSchedule)
    (lhs : FVec Ideal (⟨2, ![M, K]⟩ : Shape) φ₁) (rhs : FVec Ideal (⟨2, ![N, K]⟩ : Shape) φ₂) (r : Fin M) (c : Fin N) :
    FloatOps.dotGeneral d prec sched lhs rhs (ix2 r c) = ∑ k : Fin K, lhs (ix2 r k) * rhs (ix2 c k) := by
  rw [Ideal.dotGeneral_apply]
  exact h.sum_contr lhs rhs r c

end Idealize.ShloMosaic.RowsDot

end
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.KernelRow.lean ====
/-
  What the kernel body computes, entry by entry.

  From a block of 1024 query rows x0, and all 2048 key rows x1 and value rows x2 of the same batch, the body forms
    the scores  s (r, c) = ∑ j, x0 (r, j) * (1/8) * x1 (c, j)            (a product of rows against rows),
    the weights w (r, c) = exp (s (r, c) - max over c' of s (r, c')),
  and stores  (∑ c, w (r, c) * x2 (c, e)) / (∑ c, w (r, c))  at (r, e): one row of attention, normalised last.
  The changes of float format on the way are the identity over the extended reals.
-/
import proofs.«408572_j77756087927287_3_alg».proof.Proof.Gen.KernelIdeal.Skeleton
import proofs.«408572_j77756087927287_3_alg».proof.Proof.RowOps
import proofs.«408572_j77756087927287_3_alg».proof.Proof.LibRowsDot
import proofs.«408572_j77756087927287_3_alg».proof.Proof.LibPlainDot
import Idealize.ShloMosaic.Lib.ValueLayout

noncomputable section

namespace Cert.KernelIdeal.RowValue

open Cert.KernelIdeal Cert.KernelIdeal.Gen Cert.Attn
open Idealize.ShloMosaic Idealize.ShloMosaic.ValueIdx

/-- The first product contracts the last axis of both operands. -/
theorem qk_rows : RowsDot.IsRowsByRows dot_S1024x64_S2048x64_S1024x2048_1_1_0_0_n_n := ⟨rfl, rfl, rfl, rfl, rfl, rfl⟩

/-- The second product is the plain one: columns of the weights against rows of the values. -/
theorem pv_plain : PlainDot.IsPlain dot_S1024x2048_S2048x64_S1024x64_1_0_0_1_n_n := ⟨rfl, rfl, rfl, rfl, rfl, rfl⟩

/-- The scores of the block's query rows against the batch's key rows. -/
def scores (x0 : Vec Ideal S1x1024x64 .f32) (x1 : Vec Ideal S1x2048x64 .f32) : FVec Ideal S1024x2048 .f32 :=
  matmul dot_S1024x64_S2048x64_S1024x2048_1_1_0_0_n_n none
    (truncf .bf16 (mulf (shapeCast S1024x64 x0 shapeCasts_S1x1024x64_S1024x64) (broadcast S1024x64 (Scalar.ofBits .f32 0x3E000000#32))) bitsLt_bf16_f32)
    (truncf .bf16 (shapeCast S2048x64 x1 shapeCasts_S1x2048x64_S2048x64) bitsLt_bf16_f32)
    (constant S1024x2048 .f32 0x00000000#32)

/-- The weights: exponentials of the scores less their row maximum. -/
def weights (s : FVec Ideal S1024x2048 .f32) : FVec Ideal S1024x2048 .f32 :=
  exp (subf s (broadcastTo S1024x2048
    (shapeCast S1024x1 (multiReduction .maximumf [1] S1024 s 0xFF800000#32 reduces_S1024x2048_S1024 (.inl rfl) rfl) shapeCasts_S1024_S1024x1)
    broadcasts_S1024x1_S1024x2048))

/-- The total weight of each row, repeated along the 64 result columns. -/
def totals (w : FVec Ideal S1024x2048 .f32) : FVec Ideal S1024x64 .f32 :=
  broadcastTo S1024x64
    (shapeCast S1024x1 (multiReduction .add [1] S1024 w 0x00000000#32 reduces_S1024x2048_S1024 (.inl rfl) rfl) shapeCasts_S1024_S1024x1)
    broadcasts_S1024x1_S1024x64

/-- The weights mixed with the batch's value rows. -/
def mixed (w : FVec Ideal S1024x2048 .f32) (x2 : Vec Ideal S1x2048x64 .f32) : FVec Ideal S1024x64 .f32 :=
  matmul dot_S1024x2048_S2048x64_S1024x64_1_0_0_1_n_n none (truncf .bf16 w bitsLt_bf16_f32)
    (truncf .bf16 (shapeCast S2048x64 x2 shapeCasts_S1x2048x64_S2048x64) bitsLt_bf16_f32) (constant S1024x64 .f32 0x00000000#32)

/-- The body's stored value is the mixed values over the total weights, laid out as the block. -/
theorem payload_eq (x0 : Vec Ideal S1x1024x64 .f32) (x1 x2 : Vec Ideal S1x2048x64 .f32) :
    k0_pay1 x0 x1 x2
      = shapeCast S1x1024x64 (divf (mixed (weights (scores x0 x1)) x2) (totals (weights (scores x0 x1)))) shapeCasts_S1024x64_S1x1024x64 :=
  rfl

/-- A score at (r, c): the scaled dot product of query row r with key row c. -/
theorem scores_apply (x0 : Vec Ideal S1x1024x64 .f32) (x1 : Vec Ideal S1x2048x64 .f32) (r : Fin 1024) (c : Fin 2048) :
    scores x0 x1 (ix2 r c) = scoreIn (fun j : Fin 64 => x0 (ix3 (0 : Fin 1) r j)) (fun j : Fin 64 => x1 (ix3 (0 : Fin 1) c j)) := by
  unfold scores
  simp only [matmul]
  rw [qk_rows.matmul_zero_apply]
  unfold scoreIn
  refine Finset.sum_congr rfl fun j _ => ?_
  show shapeCast S1024x64 x0 shapeCasts_S1x1024x64_S1024x64 (ix2 r j) * Ideal.ofBits .f32 0x3E000000#32
      * shapeCast S2048x64 x1 shapeCasts_S1x2048x64_S2048x64 (ix2 c j) = _
  rw [shapeCast_1ab_ab_apply, shapeCast_1ab_ab_apply]

/-- A weight at (r, c): the exponential of the score less the maximum of row r. -/
theorem weights_apply (s : FVec Ideal S1024x2048 .f32) (r : Fin 1024) (c : Fin 2048) :
    weights s (ix2 r c) = Ideal.exp (s (ix2 r c) - rowMax (fun c' : Fin 2048 => s (ix2 r c'))) := by
  unfold weights
  show Ideal.exp (s (ix2 r c) - broadcastTo S1024x2048 _ broadcasts_S1024x1_S1024x2048 (ix2 r c)) = _
  rw [repeat_column_apply, column_apply]
  exact congrArg (fun M => Ideal.exp (s (ix2 r c) - M)) (rowmax_apply s _ _ _ r)

/-- The total at (r, e): the sum of row r of the weights, whatever the column e. -/
theorem totals_apply (w : FVec Ideal S1024x2048 .f32) (r : Fin 1024) (e : Fin 64) :
    totals w (ix2 r e) = ∑ c : Fin 2048, w (ix2 r c) := by
  unfold totals
  rw [repeat_column_apply, column_apply]
  exact rowsum_apply w _ _ _ r

/-- The mixed values at (r, e): row r of the weights against column e of the value rows. -/
theorem mixed_apply (w : FVec Ideal S1024x2048 .f32) (x2 : Vec Ideal S1x2048x64 .f32) (r : Fin 1024) (e : Fin 64) :
    mixed w x2 (ix2 r e) = ∑ c : Fin 2048, w (ix2 r c) * x2 (ix3 (0 : Fin 1) c e) := by
  unfold mixed
  simp only [matmul]
  rw [pv_plain.matmul_zero_apply]
  refine Finset.sum_congr rfl fun c _ => ?_
  show w (ix2 r c) * shapeCast S2048x64 x2 shapeCasts_S1x2048x64_S2048x64 (ix2 c e) = _
  rw [shapeCast_1ab_ab_apply]

/-- The stored value at (r, e) of the block: one row of attention, normalised last, of query row r of the block
    against the batch's keys, with column e of the batch's values. -/
theorem payload_apply (x0 : Vec Ideal S1x1024x64 .f32) (x1 x2 : Vec Ideal S1x2048x64 .f32) (u : Fin 1) (r : Fin 1024) (e : Fin 64) :
    k0_pay1 x0 x1 x2 (ix3 u r e)
      = attend (fun c : Fin 2048 => scoreIn (fun j : Fin 64 => x0 (ix3 (0 : Fin 1) r j)) (fun j : Fin 64 => x1 (ix3 (0 : Fin 1) c j)))
          (fun c : Fin 2048 => x2 (ix3 (0 : Fin 1) c e)) := by
  rw [payload_eq, shapeCast_ab_1ab_apply, divf_apply, mixed_apply, totals_apply]
  unfold attend
  simp only [weights_apply, scores_apply]

end Cert.KernelIdeal.RowValue

end
-- ==== Proof.Spec.lean ====
/-
  Attention over the whole arrays, entry by entry.

  The result at (b, r, e) depends on query row (b, r), on every key row (b, c) and on column e of every value
  row (b, c): it is the row attention of the scores of query row r against the key rows, with the value
  column (c ↦ v (b, c, e)). Two arrangements: the scale inside the score and the division last, or the scale
  outside and the division first. On arrays of reals they are the same array.
-/
import Idealize.ShloMosaic.Lib.ValueIdx
import proofs.«408572_j77756087927287_3_alg».proof.Proof.SoftmaxLaw

noncomputable section

namespace Cert.Attn

open Idealize.ShloMosaic Idealize.ShloMosaic.ValueIdx

/-- The shape of each of q, k, v and of the result: 32 batches, 2048 rows, 64 columns. -/
abbrev QKV : Shape := ⟨3, ![32, 2048, 64]⟩

/-- Scale inside the score, normalise last. -/
def attention (q k v : QKV.Idx → EReal) : QKV.Idx → EReal := fun i =>
  attend (fun c : Fin 2048 => scoreIn (fun j : Fin 64 => q (ix3 (i 0) (i 1) j)) (fun j : Fin 64 => k (ix3 (i 0) c j)))
    (fun c : Fin 2048 => v (ix3 (i 0) c (i 2)))

/-- Scale outside the score, normalise first. -/
def attentionRef (q k v : QKV.Idx → EReal) : QKV.Idx → EReal := fun i =>
  attendRef (fun c : Fin 2048 => scoreOut (fun j : Fin 64 => q (ix3 (i 0) (i 1) j)) (fun j : Fin 64 => k (ix3 (i 0) c j)))
    (fun c : Fin 2048 => v (ix3 (i 0) c (i 2)))

/-- On arrays whose every entry is a real the two arrangements are one array. -/
theorem attentionRef_eq_attention (q k v : QKV.Idx → EReal) (hq : ∀ i, ∃ x : ℝ, q i = (x : EReal))
    (hk : ∀ i, ∃ x : ℝ, k i = (x : EReal)) (hv : ∀ i, ∃ x : ℝ, v i = (x : EReal)) :
    attentionRef q k v = attention q k v := by
  choose q' hq' using hq
  choose k' hk' using hk
  choose v' hv' using hv
  funext i
  unfold attentionRef attention
  simp only [hq', hk', hv']
  have hs : ∀ c : Fin 2048,
      scoreOut (fun j : Fin 64 => ((q' (ix3 (i 0) (i 1) j) : ℝ) : EReal)) (fun j : Fin 64 => ((k' (ix3 (i 0) c j) : ℝ) : EReal))
        = scoreIn (fun j : Fin 64 => ((q' (ix3 (i 0) (i 1) j) : ℝ) : EReal)) (fun j : Fin 64 => ((k' (ix3 (i 0) c j) : ℝ) : EReal)) :=
    fun c => scoreOut_eq_scoreIn _ _
  simp only [hs, scoreIn_real]
  exact attendRef_eq_attend (by norm_num) _ _

end Cert.Attn

end
-- ==== Proof.KernelArray.lean ====
/-
  From what each grid point writes to the whole result array.

  The grid has a point for every batch b and every half of the 2048 query rows. At point (b, h) the query block is rows
  1024·h … 1024·h + 1023 of batch b, the key and value blocks are all 2048 rows of batch b, and the result block is
  rows 1024·h … of batch b. So the entry the body stores at (r, e) of its block is attention's entry at
  (b, 1024·h + r, e) of the whole arrays; the 64 result blocks tile the result array; hence the array ends holding
  attention of the three argument arrays.
-/
import proofs.«408572_j77756087927287_3_alg».proof.Proof.Gen.KernelIdeal.Value
import proofs.«408572_j77756087927287_3_alg».proof.Proof.KernelRow
import proofs.«408572_j77756087927287_3_alg».proof.Proof.Spec

noncomputable section

namespace Cert.KernelIdeal.ArrayValue

open Cert.KernelIdeal Cert.KernelIdeal.Gen Cert.KernelIdeal.RowValue Cert.Attn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin : (![0, 0, 0] : Fin 3 → Nat) = fun _ => 0 := funext fun a => by fin_cases a <;> rfl

/-- The stored entry at y of the result block is attention's entry at i of whole arrays A0, A1, A2, as soon as the
    loaded blocks are the rows of those arrays that entry i depends on: query row (i 0, i 1), every key row of batch
    i 0, and column i 2 of every value row of batch i 0. -/
theorem stored_eq_attention (A0 A1 A2 : QKV.Idx → EReal) (x0 : Vec Ideal S1x1024x64 .f32) (x1 x2 : Vec Ideal S1x2048x64 .f32)
    (y : S1x1024x64.Idx) (i : QKV.Idx)
    (h0 : ∀ j : Fin 64, x0 (ix3 (0 : Fin 1) (y 1) j) = A0 (ix3 (i 0) (i 1) j))
    (h1 : ∀ (c : Fin 2048) (j : Fin 64), x1 (ix3 (0 : Fin 1) c j) = A1 (ix3 (i 0) c j))
    (h2 : ∀ c : Fin 2048, x2 (ix3 (0 : Fin 1) c (y 2)) = A2 (ix3 (i 0) c (i 2))) :
    k0_pay1 x0 x1 x2 y = attention A0 A1 A2 i := by
  obtain ⟨u, r, e, rfl⟩ : ∃ (u : Fin 1) (r : Fin 1024) (e : Fin 64), y = ix3 u r e := ⟨y 0, y 1, y 2, eq_ix3 y⟩
  have h0' : ∀ j : Fin 64, x0 (ix3 (0 : Fin 1) r j) = A0 (ix3 (i 0) (i 1) j) := h0
  have h2' : ∀ c : Fin 2048, x2 (ix3 (0 : Fin 1) c e) = A2 (ix3 (i 0) c (i 2)) := h2
  rw [payload_apply]
  unfold attention
  simp only [h0', h1, h2']

/-- The printed index maps, decided over the 64 grid points: the query block moves with the result block; the key and
    value blocks follow its batch and stay at row block 0; no block moves along the columns. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 31 ∧ win0_3.index t (1 : Fin 3) ≤ 1 ∧ win0_3.index t (2 : Fin 3) = 0 :=
  (by decide +kernel : ∀ t : Fin grid0.N, _)

/-- Every (batch, half) is some grid point's result block. -/
theorem index_onto : ∀ (b : Fin 32) (h : Fin 2), ∃ t : Fin cfg0.N, win0_3.index t = ![b.val, h.val, 0] :=
  (by decide +kernel : ∀ (b : Fin 32) (h : Fin 2), ∃ t : Fin grid0.N, win0_3.index t = ![b.val, h.val, 0])

/-- What point t writes back is block t of attention of the argument arrays as the region finds them. -/
theorem flushed_eq (c : Dev nD) (t : Fin cfg0.N) :
    (dats m 0 c).flushed 3 t
      = ((cfg0.win 3).blk t).view.read (Elt Ideal) (attention (V m c main_arg0) (V m c main_arg1) (V m c main_arg2)) := by
  rw [Value.flushed3]
  unfold out0_3
  rw [View.canon_unit_zero origin]
  simp only [View.ld_unit_zero (S := S1x1024x64) origin, View.ld_unit_zero (S := S1x2048x64) origin]
  obtain ⟨e00, e01, e02, e10, e11, e12, e20, e21, e22, -, -, e32⟩ := index_facts t
  funext y
  show k0_pay1 (iblk m c 0 t) (iblk m c 1 t) (iblk m c 2 t) y
      = attention (V m c main_arg0) (V m c main_arg1) (V m c main_arg2) (((cfg0.win 3).blk t).view.emb y)
  have hy0 : (y 0).val < 1 := (y 0).isLt
  refine stored_eq_attention (V m c main_arg0) (V m c main_arg1) (V m c main_arg2) (iblk m c 0 t) (iblk m c 1 t) (iblk m c 2 t) y
    (((cfg0.win 3).blk t).view.emb y) (fun j => ?_) (fun k j => ?_) (fun k => ?_)
  · show V m c main_arg0 (((cfg0.win 0).blk t).view.emb (ix3 (0 : Fin 1) (y 1) j)) = _
    refine congrArg (V m c main_arg0) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 1024 + 1 * (y 1).val = win0_3.index t (1 : Fin 3) * 1024 + 1 * (y 1).val; omega
    | ⟨2, _⟩ => show win0_0.index t (2 : Fin 3) * 64 + 1 * j.val = j.val; omega
  · show V m c main_arg1 (((cfg0.win 1).blk t).view.emb (ix3 (0 : Fin 1) k j)) = _
    refine congrArg (V m c main_arg1) (funext fun a => Fin.ext ?_)
    match a with
    | ⟨0, _⟩ => show win0_1.index t (0 : Fin 3) * 1 + 1 * 0 = win0_3.index t (0 : Fin 3) * 1 + 1 * (y 0).val; omega
    | ⟨1, _⟩ => show win0_1.index t (1 : Fin 3) * 2048 + 1 * k.val = k.val; omega
    | ⟨2, _⟩ => show win0_1.index t (2 : Fin 3) * 64 + 1 * j.val = j.val; omega
  · show V m c main_arg2 (((cfg0.win 2).blk t).view.emb (ix3 (0 : Fin 1) k (y 2))) = _
    refine congrArg (V m c main_arg2) (funext fun a => Fin.ext ?_)
    match a with
    | ⟨0, _⟩ => show win0_2.index t (0 : Fin 3) * 1 + 1 * 0 = win0_3.index t (0 : Fin 3) * 1 + 1 * (y 0).val; omega
    | ⟨1, _⟩ => show win0_2.index t (1 : Fin 3) * 2048 + 1 * k.val = k.val; omega
    | ⟨2, _⟩ => show win0_2.index t (2 : Fin 3) * 64 + 1 * (y 2).val = win0_3.index t (2 : Fin 3) * 64 + 1 * (y 2).val; omega

/-- An index of the result array is in point t's block iff each coordinate is in the block's range on its axis. -/
theorem mem_block (t : Fin cfg0.N) (i : S32x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v0).slice (win0_3.rect t)).set ↔ _
  rw [View.set_slice_whole, Rect.mem_set_unit]
  exact Iff.rfl

/-- The result blocks tile the result array: entry (b, r, e) lies in the block of batch b and half r / 1024. -/
theorem covered (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := index_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The result array after the run is attention of the three argument arrays. -/
theorem final (c : Dev nD) :
    (dats m 0 c).arrAt 3 cfg0.N = attention (m ((c : Thread nD τ).loc main_arg0)) (m ((c : Thread nD τ).loc main_arg1))
      (m ((c : Thread nD τ).loc main_arg2)) :=
  (dats m 0 c).arrAt_eq_of_cover 3 (attention (V m c main_arg0) (V m c main_arg1) (V m c main_arg2))
    (fun t _ => flushed_eq m c t) covered

/-- Every weakly fair execution of the kernel program ends with the result array at attention of the arguments, and the
    arguments as they were. -/
theorem run : θ_run defs (onTc (τ := τ) (main (F := Ideal))) ⟨m, fun _ => 0, ρ⟩ fun r => ∀ c : Dev nD,
      r.2.mem ((c : Thread nD τ).loc main_v0) = attention (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.RefValue.lean ====
/-
  The reference program's result is the normalise-first arrangement of attention.

  Stage by stage, at explicit coordinates (b, r, c, e): the scaled score is the dot product of query row (b, r) with
  key row (b, c) times 1 / sqrt 64; the row maximum is taken over c from minus infinity (and once more against minus
  infinity, which changes nothing); the weight is the exponential of the score minus the row maximum; the total is
  zero plus the sum of the weights over c; the probability is weight over total; the result at (b, r, e) is the sum
  over c of probability (b, r, c) times value (b, c, e).
-/
import proofs.«408572_j77756087927287_3_alg».proof.Proof.Gen.ReferenceIdeal.Read
import proofs.«408572_j77756087927287_3_alg».proof.Proof.Spec
import Idealize.ShloMosaic.PureOps.Reduce

noncomputable section

namespace Cert.ReferenceIdeal.RefValue

open Cert.ReferenceIdeal Cert.ReferenceIdeal.Gen Cert.ReferenceIdeal.Read Cert.Attn
open Idealize.ShloMosaic Idealize.ShloMosaic.ValueIdx

variable (q k v : (⟨S32x2048x64, .f32⟩ : BufTy).Contents (Elt Ideal))

/-- The scaled score of query row (b, r) against key row (b, c). -/
theorem score_apply (b : Fin 32) (r c : Fin 2048) :
    val_main_v4 (F := Ideal) q k (ix3 b r c)
      = scoreOut (fun j : Fin 64 => q (ix3 b r j)) (fun j : Fin 64 => k (ix3 b c j)) := by
  rw [val_main_v4_apply, val_main_v2_apply, val_main_v3_apply, val_main_v1_apply, val_main_cst_0_apply, val_main_v0_apply,
    val_main_cst_apply]
  have hl : ∀ j : Fin 64, lidx_main_v2 (ix3 b r c) j = ix3 b r j := fun j => funext fun a => Fin.ext (by
    match a with | ⟨0, _⟩ => rfl | ⟨1, _⟩ => rfl | ⟨2, _⟩ => rfl)
  have hr : ∀ j : Fin 64, ridx_main_v2 (ix3 b r c) j = ix3 b c j := fun j => funext fun a => Fin.ext (by
    match a with | ⟨0, _⟩ => rfl | ⟨1, _⟩ => rfl | ⟨2, _⟩ => rfl)
  simp only [hl, hr]
  rfl

/-- The row maximum of the scaled scores of query row (b, r). -/
theorem max_apply (b : Fin 32) (r : Fin 2048) :
    val_main_v7 (F := Ideal) q k (ix2 b r)
      = max (Ideal.ofBits .f32 0xFF800000#32) (rowMax (fun c : Fin 2048 => val_main_v4 (F := Ideal) q k (ix3 b r c))) := by
  have hred : S32x2048x2048.Reduces [2] S32x2048 := by decide
  have h5 : val_main_v5 (F := Ideal) q k (ix2 b r) = rowMax (fun c : Fin 2048 => val_main_v4 (F := Ideal) q k (ix3 b r c)) := by
    unfold val_main_v5
    refine (Host.reduce_eq_fold_single (α := Ideal .f32) (FloatOps.maximumf (F := Ideal) (φ := .f32))
      (val_main_v4 (F := Ideal) q k : S32x2048x2048.Idx → Ideal .f32) (val_main_cst_1 (F := Ideal) : S_.Idx → Ideal .f32)
      reducesTo_S32x2048x2048_S32x2048_d2 hred h_S_ (ix2 b r)).trans ?_
    have hf : ((val_main_v4 (F := Ideal) q k : S32x2048x2048.Idx → Ideal .f32) ∘ hred.lift (ix2 b r))
        = fun c : Fin 2048 => val_main_v4 (F := Ideal) q k (ix3 b r c) :=
      funext fun c => congrArg (val_main_v4 (F := Ideal) q k : S32x2048x2048.Idx → Ideal .f32) (funext fun a => Fin.ext (by
        match a with | ⟨0, _⟩ => rfl | ⟨1, _⟩ => rfl | ⟨2, _⟩ => rfl))
    exact congrArg (fun f => Finset.fold max (Ideal.ofBits .f32 0xFF800000#32) f (Finset.univ : Finset (Fin 2048))) hf
  rw [val_main_v7_apply, val_main_v6_apply, val_main_cst_2_apply, h5]
  rfl

/-- The weight of key c for query row (b, r): the exponential of the score less the row maximum. -/
theorem weight_apply (b : Fin 32) (r c : Fin 2048) :
    val_main_v11 (F := Ideal) q k (ix3 b r c)
      = Ideal.exp (val_main_v4 (F := Ideal) q k (ix3 b r c) - val_main_v7 (F := Ideal) q k (ix2 b r)) := by
  rw [val_main_v11_apply, val_main_v10_apply, val_main_v9_apply, val_main_v8_apply]
  have h : idx_main_v8 (idx_main_v9 (ix3 b r c)) = ix2 b r := funext fun a => Fin.ext (by
    match a with | ⟨0, _⟩ => rfl | ⟨1, _⟩ => rfl)
  rw [h]
  rfl

/-- The total weight of query row (b, r). -/
theorem total_apply (b : Fin 32) (r : Fin 2048) :
    val_main_v12 (F := Ideal) q k (ix2 b r)
      = Ideal.ofBits .f32 0x00000000#32 + ∑ c : Fin 2048, val_main_v11 (F := Ideal) q k (ix3 b r c) := by
  rw [val_main_v12_apply]
  have h : ∀ c : Fin 2048, idx_main_v12 (ix2 b r) c = ix3 b r c := fun c => funext fun a => Fin.ext (by
    match a with | ⟨0, _⟩ => rfl | ⟨1, _⟩ => rfl | ⟨2, _⟩ => rfl)
  simp only [h]
  rfl

/-- The probability of key c for query row (b, r): its weight over the total. -/
theorem prob_apply (b : Fin 32) (r c : Fin 2048) :
    val_main_v15 (F := Ideal) q k (ix3 b r c)
      = Ideal.div (val_main_v11 (F := Ideal) q k (ix3 b r c)) (val_main_v12 (F := Ideal) q k (ix2 b r)) := by
  rw [val_main_v15_apply, val_main_v14_apply, val_main_v13_apply]
  have h : idx_main_v13 (idx_main_v14 (ix3 b r c)) = ix2 b r := funext fun a => Fin.ext (by
    match a with | ⟨0, _⟩ => rfl | ⟨1, _⟩ => rfl)
  rw [h]
  rfl

/-- The result at (b, r, e): the probabilities of row (b, r) against column e of the values of batch b. -/
theorem out_apply (b : Fin 32) (r : Fin 2048) (e : Fin 64) :
    val_main_v16 (F := Ideal) q k v (ix3 b r e)
      = ∑ c : Fin 2048, val_main_v15 (F := Ideal) q k (ix3 b r c) * v (ix3 b c e) := by
  rw [val_main_v16_apply]
  have hl : ∀ c : Fin 2048, lidx_main_v16 (ix3 b r e) c = ix3 b r c := fun c => funext fun a => Fin.ext (by
    match a with | ⟨0, _⟩ => rfl | ⟨1, _⟩ => rfl | ⟨2, _⟩ => rfl)
  have hr : ∀ c : Fin 2048, ridx_main_v16 (ix3 b r e) c = ix3 b c e := fun c => funext fun a => Fin.ext (by
    match a with | ⟨0, _⟩ => rfl | ⟨1, _⟩ => rfl | ⟨2, _⟩ => rfl)
  simp only [hl, hr]

/-- The reference's last stage is the normalise-first arrangement of attention, as whole arrays. -/
theorem result_eq_attentionRef : val_main_v16 (F := Ideal) q k v = attentionRef q k v := by
  funext i
  obtain ⟨b, r, e, rfl⟩ : ∃ (b : Fin 32) (r : Fin 2048) (e : Fin 64), i = ix3 b r e := ⟨i 0, i 1, i 2, eq_ix3 i⟩
  rw [out_apply]
  simp only [prob_apply, total_apply, weight_apply, max_apply, score_apply]
  rfl

/-- On arguments whose every entry is a real, the reference's result is attention in the normalise-last arrangement. -/
theorem result_eq_attention (hq : ∀ i, ∃ x : ℝ, q i = (x : EReal)) (hk : ∀ i, ∃ x : ℝ, k i = (x : EReal))
    (hv : ∀ i, ∃ x : ℝ, v i = (x : EReal)) : val_main_v16 (F := Ideal) q k v = attention q k v :=
  (result_eq_attentionRef q k v).trans (attentionRef_eq_attention q k v hq hk hv)

end Cert.ReferenceIdeal.RefValue

end
-- ==== Proof.Finite.lean ====
/-
  From the precondition to real entries.

  The precondition says, of each of the three argument arrays, that every entry's absolute value is below plus
  infinity. Over the extended reals |x| = max x (-x), so the entry is neither plus nor minus infinity: it is a real.
-/
import Idealize.ShloMosaic.Lib.ReduceAll
import Idealize.ShloMosaic.Lib.ValueIdx
import Idealize.ShloMosaic.PureOps.Ideal.Laws
import proofs.«408572_j77756087927287_3_alg».proof.Pre_finite_inputs

noncomputable section

namespace Cert.Attn

open Idealize.ShloMosaic Idealize.ShloMosaic.ValueIdx Cert.Pre_finite_inputs

/-- An extended real whose absolute value is below the word of plus infinity is a real. -/
theorem real_of_abs_lt (x : EReal)
    (h : FloatOps.cmpf (F := Ideal) (φ := .f32) .olt (FloatOps.hostAbsf x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmpf_def, Ideal.absf_def, Ideal.cmp])
  | top => exact absurd h (by simp [Ideal.cmpf_def, Ideal.absf_def, Ideal.cmp])
  | coe r => exact ⟨r, rfl⟩

instance : Subsingleton S_.Idx := ⟨fun a b => funext fun d => d.elim0⟩

variable [Facts]
open Facts

/-- One array's part of the precondition: the all-reduction of the entrywise test is one, so the test holds at every entry. -/
theorem real_of_all (x : FVec Ideal S32x2048x64 .f32)
    (h : Host.reduce IntOp.andi
        (cmpf .olt (Host.absf x) (broadcastInDim S32x2048x64 ![] bcast_S_S32x2048x64 (constant (F := Ideal) S_ .f32 0x7F800000#32)))
        (constantI S_ 1 1#1) reducesTo_S32x2048x64_S_d0_1_2 h_S_ ix0 = 1#1) (i : S32x2048x64.Idx) :
    ∃ r : ℝ, x i = (r : EReal) :=
  real_of_abs_lt (x i) (Host.reduce_andi_all _ _ _ _ _ h i)

/-- Under the precondition every entry of each argument array is a real. -/
theorem real_of_pre (q k v : FVec Ideal S32x2048x64 .f32) (h : fn (F := Ideal) q k v = fun _ => 1#1) :
    (∀ i, ∃ r : ℝ, q i = (r : EReal)) ∧ (∀ i, ∃ r : ℝ, k i = (r : EReal)) ∧ (∀ i, ∃ r : ℝ, v i = (r : EReal)) := by
  have h0 := congrFun h ix0
  dsimp only [fn, andi] at h0
  obtain ⟨h01, hv⟩ := IntOp.andi_eq_one.1 h0
  obtain ⟨hq, hk⟩ := IntOp.andi_eq_one.1 h01
  exact ⟨real_of_all q hq, real_of_all k hk, real_of_all v hv⟩

end Cert.Attn

end
-- ==== Proof.lean ====
/-
  Scaled dot-product attention: the kernel against its reference, over the extended reals.

  Both programs compute, for every batch b, query row r and output column e,

      out (b, r, e) = ∑ c, softmax_c ( (q (b, r, ·) · k (b, c, ·)) / 8 ) * v (b, c, e).

  The kernel multiplies the query by 1/8 before the product with the keys, subtracts the row maximum, exponentiates,
  sums the weights, multiplies the weights with the values and divides by the sum last. The reference multiplies the
  finished query-key product by 1 / sqrt 64, subtracts the row maximum, exponentiates, divides each weight by the sum
  of the weights first and multiplies with the values last. Since sqrt 64 = 8 the two scales are the same real; a real
  factor moves across a finite sum of reals, and division by a nonzero real distributes over a finite sum of reals.
  Both laws fail at the infinities, so the precondition (every input entry finite) is used: it makes every score,
  every row maximum, every weight and every sum of weights a real, the sums of weights positive.

  Where each part is: the two laws and the literal words in SoftmaxLaw; attention of whole arrays in its two
  arrangements, and their equality on real arrays, in Spec; the entry the kernel body stores in KernelRow (over RowOps
  and the two matrix-product readings); the passage from the 64 result blocks to the whole result array in
  KernelArray; the reference's stages assembled into one array function in RefValue; real entries from the
  precondition in Finite. The frames and the two programs' runs are the generated modules imported below.
-/
import proofs.«408572_j77756087927287_3_alg».proof.Defs
import proofs.«408572_j77756087927287_3_alg».proof.Proof.Gen.Kernel
import proofs.«408572_j77756087927287_3_alg».proof.Proof.Gen.Kernel.Skeleton
import proofs.«408572_j77756087927287_3_alg».proof.Proof.Gen.Kernel.Launch
import proofs.«408572_j77756087927287_3_alg».proof.Proof.Gen.Kernel.Points
import proofs.«408572_j77756087927287_3_alg».proof.Proof.Gen.Kernel.Frame
import proofs.«408572_j77756087927287_3_alg».proof.Proof.Gen.KernelIdeal
import proofs.«408572_j77756087927287_3_alg».proof.Proof.Gen.KernelIdeal.Skeleton
import proofs.«408572_j77756087927287_3_alg».proof.Proof.Gen.KernelIdeal.Launch
import proofs.«408572_j77756087927287_3_alg».proof.Proof.Gen.KernelIdeal.Points
import proofs.«408572_j77756087927287_3_alg».proof.Proof.Gen.KernelIdeal.Frame
import proofs.«408572_j77756087927287_3_alg».proof.Proof.Gen.ReferenceIdeal
import proofs.«408572_j77756087927287_3_alg».proof.Proof.Gen.Pre_finite_inputs
import proofs.«408572_j77756087927287_3_alg».proof.Proof.Gen.KernelIdeal.Value
import proofs.«408572_j77756087927287_3_alg».proof.Proof.Gen.ReferenceIdeal.Run
import proofs.«408572_j77756087927287_3_alg».proof.Proof.Gen.ReferenceIdeal.Read
import proofs.«408572_j77756087927287_3_alg».proof.Proof.KernelArray
import proofs.«408572_j77756087927287_3_alg».proof.Proof.RefValue
import proofs.«408572_j77756087927287_3_alg».proof.Proof.Finite
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel over the extended reals. -/
theorem frame_kernel_ideal : Cert.frame_KernelIdeal := fun m ρ _ => Cert.KernelIdeal.Gen.frame m ρ

/-- The reference is straight-line host code: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From finite arguments that agree, the kernel's result array and the reference's are both attention of the
    arguments: the kernel's by its run read block by block, the reference's by its stages, which are the
    normalise-first arrangement and, the entries being reals, equal to the normalise-last one. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hq, hk, hv⟩ := Cert.Attn.real_of_pre _ _ _ (hpre c)
  rw [(hagree c).1, (hagree c).2.1, (hagree c).2.2]
  exact (Cert.ReferenceIdeal.Read.val_main_v16_eq _ _ _).trans
    (Cert.ReferenceIdeal.RefValue.result_eq_attention _ _ _ hq hk hv)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
